-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384x256 : S_.BroadcastsInDim S16384x256 (![] : Fin 0 → Fin S16384x256.rank)
  reducesTo_S16384x256_S_d0_1 : S16384x256.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S1x4096x4096 .f32) (main_arg1 : FVec F S16384x4096 .f32) (main_arg2 : FVec F S16384x256 .f32) (main_arg3 : FVec F S16384 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S7 : Shape := ⟨1, ![7]⟩
abbrev S8 : Shape := ⟨1, ![8]⟩
abbrev S4096x4096 : Shape := ⟨2, ![4096, 4096]⟩
abbrev S4096x256x16 : Shape := ⟨3, ![4096, 256, 16]⟩
abbrev S_ : Shape := ⟨0, ![]⟩
abbrev S4096x256 : Shape := ⟨2, ![4096, 256]⟩
abbrev S4096x256x1 : Shape := ⟨3, ![4096, 256, 1]⟩
abbrev S4096x256x16x1 : Shape := ⟨4, ![4096, 256, 16, 1]⟩
abbrev S1x1x1x7 : Shape := ⟨4, ![1, 1, 1, 7]⟩
abbrev S4096x256x16x7 : Shape := ⟨4, ![4096, 256, 16, 7]⟩
abbrev S16384x256x16 : Shape := ⟨3, ![16384, 256, 16]⟩
abbrev S16384x256x1 : Shape := ⟨3, ![16384, 256, 1]⟩
abbrev S1x16384 : Shape := ⟨2, ![1, 16384]⟩
abbrev S4096x16384 : Shape := ⟨2, ![4096, 16384]⟩
abbrev S512x1024 : Shape := ⟨2, ![512, 1024]⟩
abbrev S1024x1024 : Shape := ⟨2, ![1024, 1024]⟩
abbrev S1x1024 : Shape := ⟨2, ![1, 1024]⟩
abbrev S1x4096x16384 : Shape := ⟨3, ![1, 4096, 16384]⟩

abbrev nBuf : Space → Nat
  | .hbm => 92
  | .vmem => 9
  | .smem => 0
  | _ => 0

abbrev bufTy : (tb : Table) → Fin (tcTables nBuf tb) → BufTy
  | .hbm, ⟨0, _⟩ => ⟨S1x4096x4096, .f32⟩
  | .hbm, ⟨1, _⟩ => ⟨S16384x4096, .f32⟩
  | .hbm, ⟨2, _⟩ => ⟨S16384x256, .f32⟩
  | .hbm, ⟨3, _⟩ => ⟨S16384, .f32⟩
  | .hbm, ⟨4, _⟩ => ⟨S7, .f32⟩
  | .hbm, ⟨5, _⟩ => ⟨S8, .f32⟩
  | .hbm, ⟨6, _⟩ => ⟨S4096x4096, .f32⟩
  | .hbm, ⟨7, _⟩ => ⟨S4096x256x16, .f32⟩
  | .hbm, ⟨8, _⟩ => ⟨S4096x256x16, .f32⟩
  | .hbm, ⟨9, _⟩ => ⟨S_, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096x256, .f32⟩
  | .hbm, ⟨54, _⟩ => ⟨S4096x256, .f32⟩
  | .hbm, ⟨55, _⟩ => ⟨S4096x256x1, .f32⟩
  | .hbm, ⟨56, _⟩ => ⟨S4096x256x16, .f32⟩
  | .hbm, ⟨57, _⟩ => ⟨S4096x256x16, .f32⟩
  | .hbm, ⟨58, _⟩ => ⟨S4096x256x16, .f32⟩
  | .hbm, ⟨59, _⟩ => ⟨S4096x256x16x1, .f32⟩
  | .hbm, ⟨60, _⟩ => ⟨S1x1x1x7, .f32⟩
  | .hbm, ⟨61, _⟩ => ⟨S4096x256x16x7, .f32⟩
  | .hbm, ⟨62, _⟩ => ⟨S4096x256x16x7, .f32⟩
  | .hbm, ⟨63, _⟩ => ⟨S4096x256x16x7, .i1⟩
  | .hbm, ⟨64, _⟩ => ⟨S4096x256x16x7, .i32⟩
  | .hbm, ⟨65, _⟩ => ⟨S_, .i32⟩
  | .hbm, ⟨66, _⟩ => ⟨S4096x256x16, .i32⟩
  | .hbm, ⟨67, _⟩ => ⟨S4096x256x16, .f32⟩
  | .hbm, ⟨68, _⟩ => ⟨S_, .i32⟩
  | .hbm, ⟨69, _⟩ => ⟨S4096x256x16, .i32⟩
  | .hbm, ⟨70, _⟩ => ⟨S4096x256x16, .i1⟩
  | .hbm, ⟨71, _⟩ => ⟨S_, .i32⟩
  | .hbm, ⟨72, _⟩ => ⟨S4096x256x16, .i32⟩
  | .hbm, ⟨73, _⟩ => ⟨S4096x256x16, .i32⟩
  | .hbm, ⟨74, _⟩ => ⟨S4096x256x16, .i32⟩
  | .hbm, ⟨75, _⟩ => ⟨S4096x256x16x1, .i32⟩
  | .hbm, ⟨76, _⟩ => ⟨S4096x256x16, .f32⟩
  | .hbm, ⟨77, _⟩ => ⟨S4096x256x16, .f32⟩
  | .hbm, ⟨78, _⟩ => ⟨S4096x256x1, .f32⟩
  | .hbm, ⟨79, _⟩ => ⟨S4096x256x16, .f32⟩
  | .hbm, ⟨80, _⟩ => ⟨S4096x256x16, .f32⟩
  | .hbm, ⟨81, _⟩ => ⟨S4096x4096, .f32⟩
  | .hbm, ⟨82, _⟩ => ⟨S4096x4096, .bf16⟩
  | .hbm, ⟨83, _⟩ => ⟨S16384x256x16, .f32⟩
  | .hbm, ⟨84, _⟩ => ⟨S16384x256x1, .f32⟩
  | .hbm, ⟨85, _⟩ => ⟨S16384x256x16, .f32⟩
  | .hbm, ⟨86, _⟩ => ⟨S16384x256x16, .f32⟩
  | .hbm, ⟨87, _⟩ => ⟨S16384x4096, .f32⟩
  | .hbm, ⟨88, _⟩ => ⟨S16384x4096, .bf16⟩
  | .hbm, ⟨89, _⟩ => ⟨S1x16384, .f32⟩
  | .hbm, ⟨90, _⟩ => ⟨S4096x16384, .f32⟩
  | .hbm, ⟨91, _⟩ => ⟨S1x4096x16384, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_cst_8 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_cst_11 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_cst_12 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1x4096x4096_S4096x4096 : S1x4096x4096.ShapeCasts S4096x4096
  shapeCasts_S4096x4096_S4096x256x16 : S4096x4096.ShapeCasts S4096x256x16
  reducesTo_S4096x256x16_S4096x256_d2 : S4096x256x16.ReducesTo [2] S4096x256
  h_S_ : 0 < S_.numel
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  bcast_S4096x256x16_S4096x256x16x1_0_1_2 : S4096x256x16.BroadcastsInDim S4096x256x16x1 (![0, 1, 2] : Fin 3 → Fin S4096x256x16x1.rank)
  bcast_S7_S1x1x1x7_3 : S7.BroadcastsInDim S1x1x1x7 (![3] : Fin 1 → Fin S1x1x1x7.rank)
  bcast_S4096x256x16x1_S4096x256x16x7_0_1_2_3 : S4096x256x16x1.BroadcastsInDim S4096x256x16x7 (![0, 1, 2, 3] : Fin 4 → Fin S4096x256x16x7.rank)
  bcast_S1x1x1x7_S4096x256x16x7_0_1_2_3 : S1x1x1x7.BroadcastsInDim S4096x256x16x7 (![0, 1, 2, 3] : Fin 4 → Fin S4096x256x16x7.rank)
  natLt_1_32 : 1 < 32
  reducesTo_S4096x256x16x7_S4096x256x16_d3 : S4096x256x16x7.ReducesTo [3] S4096x256x16
  bcast_S_S4096x256x16 : S_.BroadcastsInDim S4096x256x16 (![] : Fin 0 → Fin S4096x256x16.rank)
  shapeCasts_S4096x256x16_S4096x4096 : S4096x256x16.ShapeCasts S4096x4096
  bitsLt_bf16_f32 : FTy.bits .bf16 < FTy.bits .f32
  shapeCasts_S16384x4096_S16384x256x16 : S16384x4096.ShapeCasts S16384x256x16
  bcast_S16384x256_S16384x256x1_0_1 : S16384x256.BroadcastsInDim S16384x256x1 (![0, 1] : Fin 2 → Fin S16384x256x1.rank)
  bcast_S16384x256x1_S16384x256x16_0_1_2 : S16384x256x1.BroadcastsInDim S16384x256x16 (![0, 1, 2] : Fin 3 → Fin S16384x256x16.rank)
  shapeCasts_S16384x256x16_S16384x4096 : S16384x256x16.ShapeCasts S16384x4096
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x16384_S1x4096x16384 : S4096x16384.ShapeCasts S1x4096x16384
  gather_S8_S4096x256x16x1_S4096x256x16_n_0_n_n_0_3_1_wf : GatherDims.WF S8 S4096x256x16x1 S4096x256x16 [] [0] [] [0] [] 3 ![1]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .bf16 = 32 ∨ (Rect.block (s := S4096x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x16384.size a
  hwx0_3 : ∀ i : grid0.Coords, EltTy.bits .f32 = 32 ∨ (Rect.block (s := S4096x16384) S512x1024.size (cc0_transform_3 i) (hinb0_3 i)).WholeWords (EltTy.packing .f32)

variable [Facts₀]

def gather_S8_S4096x256x16x1_S4096x256x16_n_0_n_n_0_3_1 : GatherDims S8 S4096x256x16x1 S4096x256x16 where
  offsetDims := []
  collapsedSliceDims := [0]
  operandBatchingDims := []
  startIndicesBatchingDims := []
  startIndexMap := [0]
  indexVectorDim := 3
  sliceSizes := ![1]
  wf := gather_S8_S4096x256x16x1_S4096x256x16_n_0_n_n_0_3_1_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v51) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S7 : Shape := ⟨1, ![7]⟩
abbrev S8 : Shape := ⟨1, ![8]⟩
abbrev S4096x4096 : Shape := ⟨2, ![4096, 4096]⟩
abbrev S4096x256x16 : Shape := ⟨3, ![4096, 256, 16]⟩
abbrev S_ : Shape := ⟨0, ![]⟩
abbrev S4096x256 : Shape := ⟨2, ![4096, 256]⟩
abbrev S4096x256x1 : Shape := ⟨3, ![4096, 256, 1]⟩
abbrev S4096x256x16x1 : Shape := ⟨4, ![4096, 256, 16, 1]⟩
abbrev S1x1x1x7 : Shape := ⟨4, ![1, 1, 1, 7]⟩
abbrev S4096x256x16x7 : Shape := ⟨4, ![4096, 256, 16, 7]⟩
abbrev S16384x256x16 : Shape := ⟨3, ![16384, 256, 16]⟩
abbrev S16384x256x1 : Shape := ⟨3, ![16384, 256, 1]⟩
abbrev S4096x16384 : Shape := ⟨2, ![4096, 16384]⟩
abbrev S1x16384 : Shape := ⟨2, ![1, 16384]⟩
abbrev S1x4096x16384 : Shape := ⟨3, ![1, 4096, 16384]⟩

abbrev nBuf : Space → Nat
  | .hbm => 96
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S16384x4096, .f32⟩
  | .hbm, ⟨2, _⟩ => ⟨S16384x256, .f32⟩
  | .hbm, ⟨3, _⟩ => ⟨S16384, .f32⟩
  | .hbm, ⟨4, _⟩ => ⟨S7, .f32⟩
  | .hbm, ⟨5, _⟩ => ⟨S8, .f32⟩
  | .hbm, ⟨6, _⟩ => ⟨S4096x4096, .f32⟩
  | .hbm, ⟨7, _⟩ => ⟨S4096x256x16, .f32⟩
  | .hbm, ⟨8, _⟩ => ⟨S4096x256x16, .f32⟩
  | .hbm, ⟨9, _⟩ => ⟨S_, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096x256, .f32⟩
  | .hbm, ⟨54, _⟩ => ⟨S4096x256, .f32⟩
  | .hbm, ⟨55, _⟩ => ⟨S4096x256x1, .f32⟩
  | .hbm, ⟨56, _⟩ => ⟨S4096x256x16, .f32⟩
  | .hbm, ⟨57, _⟩ => ⟨S4096x256x16, .f32⟩
  | .hbm, ⟨58, _⟩ => ⟨S4096x256x16, .f32⟩
  | .hbm, ⟨59, _⟩ => ⟨S4096x256x16x1, .f32⟩
  | .hbm, ⟨60, _⟩ => ⟨S1x1x1x7, .f32⟩
  | .hbm, ⟨61, _⟩ => ⟨S4096x256x16x7, .f32⟩
  | .hbm, ⟨62, _⟩ => ⟨S4096x256x16x7, .f32⟩
  | .hbm, ⟨63, _⟩ => ⟨S4096x256x16x7, .i1⟩
  | .hbm, ⟨64, _⟩ => ⟨S4096x256x16x7, .i32⟩
  | .hbm, ⟨65, _⟩ => ⟨S_, .i32⟩
  | .hbm, ⟨66, _⟩ => ⟨S4096x256x16, .i32⟩
  | .hbm, ⟨67, _⟩ => ⟨S4096x256x16, .f32⟩
  | .hbm, ⟨68, _⟩ => ⟨S_, .i32⟩
  | .hbm, ⟨69, _⟩ => ⟨S4096x256x16, .i32⟩
  | .hbm, ⟨70, _⟩ => ⟨S4096x256x16, .i1⟩
  | .hbm, ⟨71, _⟩ => ⟨S_, .i32⟩
  | .hbm, ⟨72, _⟩ => ⟨S4096x256x16, .i32⟩
  | .hbm, ⟨73, _⟩ => ⟨S4096x256x16, .i32⟩
  | .hbm, ⟨74, _⟩ => ⟨S4096x256x16, .i32⟩
  | .hbm, ⟨75, _⟩ => ⟨S4096x256x16x1, .i32⟩
  | .hbm, ⟨76, _⟩ => ⟨S4096x256x16, .f32⟩
  | .hbm, ⟨77, _⟩ => ⟨S4096x256x16, .f32⟩
  | .hbm, ⟨78, _⟩ => ⟨S4096x256x1, .f32⟩
  | .hbm, ⟨79, _⟩ => ⟨S4096x256x16, .f32⟩
  | .hbm, ⟨80, _⟩ => ⟨S4096x256x16, .f32⟩
  | .hbm, ⟨81, _⟩ => ⟨S4096x4096, .f32⟩
  | .hbm, ⟨82, _⟩ => ⟨S16384x256x16, .f32⟩
  | .hbm, ⟨83, _⟩ => ⟨S16384x256x1, .f32⟩
  | .hbm, ⟨84, _⟩ => ⟨S16384x256x16, .f32⟩
  | .hbm, ⟨85, _⟩ => ⟨S16384x256x16, .f32⟩
  | .hbm, ⟨86, _⟩ => ⟨S16384x4096, .f32⟩
  | .hbm, ⟨87, _⟩ => ⟨S4096x16384, .f32⟩
  | .hbm, ⟨88, _⟩ => ⟨S4096x16384, .f32⟩
  | .hbm, ⟨89, _⟩ => ⟨S_, .f32⟩
  | .hbm, ⟨90, _⟩ => ⟨S4096x16384, .f32⟩
  | .hbm, ⟨91, _⟩ => ⟨S4096x16384, .f32⟩
  | .hbm, ⟨92, _⟩ => ⟨S1x16384, .f32⟩
  | .hbm, ⟨93, _⟩ => ⟨S4096x16384, .f32⟩
  | .hbm, ⟨94, _⟩ => ⟨S4096x16384, .f32⟩
  | .hbm, ⟨95, _⟩ => ⟨S1x4096x16384, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_cst_8 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_cst_11 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_cst_12 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  shapeCasts_S1x4096x4096_S4096x4096 : S1x4096x4096.ShapeCasts S4096x4096
  shapeCasts_S4096x4096_S4096x256x16 : S4096x4096.ShapeCasts S4096x256x16
  reducesTo_S4096x256x16_S4096x256_d2 : S4096x256x16.ReducesTo [2] S4096x256
  h_S_ : 0 < S_.numel
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  bcast_S4096x256x16_S4096x256x16x1_0_1_2 : S4096x256x16.BroadcastsInDim S4096x256x16x1 (![0, 1, 2] : Fin 3 → Fin S4096x256x16x1.rank)
  bcast_S7_S1x1x1x7_3 : S7.BroadcastsInDim S1x1x1x7 (![3] : Fin 1 → Fin S1x1x1x7.rank)
  bcast_S4096x256x16x1_S4096x256x16x7_0_1_2_3 : S4096x256x16x1.BroadcastsInDim S4096x256x16x7 (![0, 1, 2, 3] : Fin 4 → Fin S4096x256x16x7.rank)
  bcast_S1x1x1x7_S4096x256x16x7_0_1_2_3 : S1x1x1x7.BroadcastsInDim S4096x256x16x7 (![0, 1, 2, 3] : Fin 4 → Fin S4096x256x16x7.rank)
  natLt_1_32 : 1 < 32
  reducesTo_S4096x256x16x7_S4096x256x16_d3 : S4096x256x16x7.ReducesTo [3] S4096x256x16
  bcast_S_S4096x256x16 : S_.BroadcastsInDim S4096x256x16 (![] : Fin 0 → Fin S4096x256x16.rank)
  shapeCasts_S4096x256x16_S4096x4096 : S4096x256x16.ShapeCasts S4096x4096
  shapeCasts_S16384x4096_S16384x256x16 : S16384x4096.ShapeCasts S16384x256x16
  bcast_S16384x256_S16384x256x1_0_1 : S16384x256.BroadcastsInDim S16384x256x1 (![0, 1] : Fin 2 → Fin S16384x256x1.rank)
  bcast_S16384x256x1_S16384x256x16_0_1_2 : S16384x256x1.BroadcastsInDim S16384x256x16 (![0, 1, 2] : Fin 3 → Fin S16384x256x16.rank)
  shapeCasts_S16384x256x16_S16384x4096 : S16384x256x16.ShapeCasts S16384x4096
  transposes_S16384x4096_S4096x16384_1_0 : S16384x4096.Transposes [1, 0] S4096x16384
  bcast_S_S4096x16384 : S_.BroadcastsInDim S4096x16384 (![] : Fin 0 → Fin S4096x16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  shapeCasts_S4096x16384_S1x4096x16384 : S4096x16384.ShapeCasts S1x4096x16384
  gather_S8_S4096x256x16x1_S4096x256x16_n_0_n_n_0_3_1_wf : GatherDims.WF S8 S4096x256x16x1 S4096x256x16 [] [0] [] [0] [] 3 ![1]
  dot_S4096x4096_S4096x16384_S4096x16384_1_0_0_1_n_n_wf : DotDims.WF S4096x4096 S4096x16384 S4096x16384 [1] [0] [0] [1] [] []

variable [Facts₀]

def gather_S8_S4096x256x16x1_S4096x256x16_n_0_n_n_0_3_1 : GatherDims S8 S4096x256x16x1 S4096x256x16 where
  offsetDims := []
  collapsedSliceDims := [0]
  operandBatchingDims := []
  startIndicesBatchingDims := []
  startIndexMap := [0]
  indexVectorDim := 3
  sliceSizes := ![1]
  wf := gather_S8_S4096x256x16x1_S4096x256x16_n_0_n_n_0_3_1_wf
def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf

class Facts : Prop extends Facts₀ where

variable [Facts]
-- ==== Proof.Quant.lean ====
/-
  The host arithmetic the two programs share, as functions of the argument arrays.

  Both programs quantise the activations in blocks of sixteen along the last axis: the block's largest magnitude over
  six, clipped below, is rounded to a three-mantissa-bit step (a power of two read off `floor (log s / log 2)`, clamped to
  [-6, 8]) and clamped to [2^-9, 448]: that is the block's SCALE; each entry over its scale is snapped to the signed grid
  {0, 0.5, 1, 1.5, 2, 3, 4, 6} by counting the seven midpoints it exceeds; the snapped entry times the scale is the
  dequantised activation `xdeq`. The weights are dequantised by one product with their per-block scales, `wdeq`.
  Nothing below is opened by the certificate: the kernel's program and the reference apply the very same operations to
  the very same arrays, so both sides carry `xdeq x` and `wdeq w s` as they stand. Only `closing` — the reference's
  last lines: the contraction of `xdeq` with the transposed `wdeq`, the zero it is added to, the bias row — is read
  index by index (elsewhere).
-/
import proofs.«109955_j29618094473423_1_alg».proof.ReferenceIdeal

noncomputable section

namespace Cert.ReferenceIdeal.Quant

open Idealize.ShloMosaic Cert.ReferenceIdeal Cert.ReferenceIdeal.Facts₀

variable {F : FTy → Type} [FloatOps F] [Cert.ReferenceIdeal.Facts]

/-- One f32 word on every (row, block) pair. -/
def splat (w : BitVec 32) : FVec F S4096x256 .f32 :=
  broadcastInDim S4096x256 ![] bcast_S_S4096x256 (constant S_ .f32 w)

/-- The activations as rows of 256 blocks of 16. -/
def blocks16 (x : FVec F S1x4096x4096 .f32) : FVec F S4096x256x16 .f32 :=
  shapeCast S4096x256x16 (shapeCast S4096x4096 x shapeCasts_S1x4096x4096_S4096x4096) shapeCasts_S4096x4096_S4096x256x16

/-- A block's largest magnitude over six, never below 1e-12. -/
def rawScale (x1 : FVec F S4096x256x16 .f32) : FVec F S4096x256 .f32 :=
  maximumf
    (Host.divf
      (Host.reduce FloatOps.maximumf (Host.absf x1) (constant S_ .f32 0xFF800000#32) reducesTo_S4096x256x16_S4096x256_d2 h_S_)
      (splat 0x40C00000#32))
    (splat 0x2B8CBCCC#32)

/-- The rounding step of a raw scale `s`: `exp (ln2 · (clamp (floor (log (max s 1e-30) / log 2)) (-6) 8 - 3))`. -/
def step (s : FVec F S4096x256 .f32) : FVec F S4096x256 .f32 :=
  Host.exp (mulf (splat 0x3F317218#32)
    (subf
      (minimumf (splat 0x41000000#32)
        (maximumf (splat 0xC0C00000#32)
          (Host.floor (Host.divf (Host.log (maximumf s (splat 0x0DA24260#32)))
            (broadcastInDim S4096x256 ![] bcast_S_S4096x256 (Host.log (constant S_ .f32 0x40000000#32)))))))
      (splat 0x40400000#32)))

/-- The block scale: the raw scale rounded to its step, clamped to [0, 448], never below 2^-9. -/
def scale (s : FVec F S4096x256 .f32) : FVec F S4096x256 .f32 :=
  maximumf
    (minimumf (splat 0x43E00000#32)
      (maximumf (splat 0x00000000#32) (mulf (Host.roundeven (Host.divf s (step s))) (step s))))
    (splat 0x3B000000#32)

/-- A per-block value repeated over the block's sixteen entries. -/
def spread (s : FVec F S4096x256 .f32) : FVec F S4096x256x16 .f32 :=
  broadcastInDim S4096x256x16 ![0, 1, 2] bcast_S4096x256x1_S4096x256x16_0_1_2
    (broadcastInDim S4096x256x1 ![0, 1] bcast_S4096x256_S4096x256x1_0_1 s)

/-- How many of the seven grid midpoints an entry's magnitude exceeds. -/
def level (y : FVec F S4096x256x16 .f32) : IVec S4096x256x16 32 :=
  Host.reduce IntOp.addi
    (extui 32
      (cmpf .ogt
        (broadcastInDim S4096x256x16x7 ![0, 1, 2, 3] bcast_S4096x256x16x1_S4096x256x16x7_0_1_2_3
          (broadcastInDim S4096x256x16x1 ![0, 1, 2] bcast_S4096x256x16_S4096x256x16x1_0_1_2 (Host.absf y)))
        (broadcastInDim S4096x256x16x7 ![0, 1, 2, 3] bcast_S1x1x1x7_S4096x256x16x7_0_1_2_3
          (broadcastInDim S1x1x1x7 ![3] bcast_S7_S1x1x1x7_3
            (fun i => FloatOps.ofBits .f32 (lit0 (S7.rowMajor i)) : FVec F S7 .f32))))
      natLt_1_32)
    (constantI S_ 32 0#32) reducesTo_S4096x256x16x7_S4096x256x16_d3 h_S_

/-- The grid magnitude of that level (a negative level would wrap by eight; none is). -/
def gridOf (n : IVec S4096x256x16 32) : FVec F S4096x256x16 .f32 :=
  Host.gather gather_S8_S4096x256x16x1_S4096x256x16_n_0_n_n_0_3_1
    (fun i => FloatOps.ofBits .f32 (lit1 (S8.rowMajor i)) : FVec F S8 .f32)
    (broadcastInDim S4096x256x16x1 ![0, 1, 2] bcast_S4096x256x16_S4096x256x16x1_0_1_2
      (select (cmpi .slt n (broadcastInDim S4096x256x16 ![] bcast_S_S4096x256x16 (constantI S_ 32 0#32)))
        (addi n (broadcastInDim S4096x256x16 ![] bcast_S_S4096x256x16 (constantI S_ 32 8#32))) n))

/-- The dequantised activations: sign · grid magnitude · block scale, as a [4096, 4096] matrix. -/
def xdeq (x : FVec F S1x4096x4096 .f32) : FVec F S4096x4096 .f32 :=
  shapeCast S4096x4096
    (mulf
      (mulf (Host.sign (Host.divf (blocks16 x) (spread (scale (rawScale (blocks16 x))))))
        (gridOf (level (Host.divf (blocks16 x) (spread (scale (rawScale (blocks16 x))))))))
      (spread (scale (rawScale (blocks16 x)))))
    shapeCasts_S4096x256x16_S4096x4096

/-- The dequantised weights: each entry times its block's scale, as a [16384, 4096] matrix. -/
def wdeq (w : FVec F S16384x4096 .f32) (s : FVec F S16384x256 .f32) : FVec F S16384x4096 .f32 :=
  shapeCast S16384x4096
    (mulf (shapeCast S16384x256x16 w shapeCasts_S16384x4096_S16384x256x16)
      (broadcastInDim S16384x256x16 ![0, 1, 2] bcast_S16384x256x1_S16384x256x16_0_1_2
        (broadcastInDim S16384x256x1 ![0, 1] bcast_S16384x256_S16384x256x1_0_1 s)))
    shapeCasts_S16384x256x16_S16384x4096

/-- The reference's last lines: `0 + X · Wᵀ + bias`, with a leading unit axis. -/
def closing (X : FVec F S4096x4096 .f32) (W : FVec F S16384x4096 .f32) (b : FVec F S16384 .f32) :
    FVec F S1x4096x16384 .f32 :=
  shapeCast S1x4096x16384
    (addf
      (addf (broadcastInDim S4096x16384 ![] bcast_S_S4096x16384 (constant S_ .f32 0x00000000#32))
        (Host.dotGeneral dot_S4096x4096_S4096x16384_S4096x16384_1_0_0_1_n_n none X
          (transpose S4096x16384 [1, 0] W transposes_S16384x4096_S4096x16384_1_0)))
      (broadcastInDim S4096x16384 ![0, 1] bcast_S1x16384_S4096x16384_0_1
        (broadcastInDim S1x16384 ![1] bcast_S16384_S1x16384_1 b)))
    shapeCasts_S4096x16384_S1x4096x16384

end Cert.ReferenceIdeal.Quant

end
-- ==== Proof.RefRun.lean ====
/-
  The reference program's run, read back as one pure term.

  @main of the reference is a straight line: ninety-two host operations once its three calls (the clip of the
  step's exponent to [-6, 8], the round-to-even of the scale over its step, the clip of the rounded scale to
  [0, 448]) are written out at their call sites over the buffers each call names. Run from any memory, every
  weakly fair execution ends; each buffer then holds the fold of the operations' results over what the launch
  found there. At the result buffer that fold is the closing contraction `0 + X · Wᵀ + bias` of the dequantised
  activations `X` with the dequantised weights `W`; the four argument buffers are written by no operation and keep
  their contents.
-/
import proofs.«109955_j29618094473423_1_alg».proof.Proof.Quant
import proofs.«109955_j29618094473423_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: the two midpoint and grid tables, the activations cut in
    blocks of sixteen, the block's raw scale, its rounding step (the first clip's six operations inside), the
    scale over the step rounded to even (one operation), the product clipped to [0, 448] (the second clip's six)
    and floored at 2^-9, the entries over their scale counted against the seven midpoints, the grid value
    gathered at that count, sign · grid · scale, and then the weights times their block scales, the transpose,
    the contraction, the zero it is added to, the bias row, the leading unit axis. -/
abbrev ops : List (HloOp τ sig (Elt F)) :=
  ( StableHlo.nullary main_cst (fun i => FloatOps.ofBits .f32 (lit0 (S7.rowMajor i)))
  :: StableHlo.nullary main_cst_0 (fun i => FloatOps.ofBits .f32 (lit1 (S8.rowMajor i)))
  :: StableHlo.reshape main_arg0 main_v0 rfl shapeCasts_S1x4096x4096_S4096x4096
  :: StableHlo.reshape main_v0 main_v1 rfl shapeCasts_S4096x4096_S4096x256x16
  :: StableHlo.unary main_v1 main_v2 (Host.absf : (⟨S4096x256x16, .f32⟩ : BufTy).Contents (Elt F) → (⟨S4096x256x16, .f32⟩ : BufTy).Contents (Elt F))
  :: StableHlo.nullary main_cst_1 (constant S_ .f32 0xFF800000#32)
  :: StableHlo.binary main_v2 main_cst_1 main_v3 ((fun x v => Host.reduce FloatOps.maximumf x v reducesTo_S4096x256x16_S4096x256_d2 h_S_) : (⟨S4096x256x16, .f32⟩ : BufTy).Contents (Elt F) → (⟨S_, .f32⟩ : BufTy).Contents (Elt F) → (⟨S4096x256, .f32⟩ : BufTy).Contents (Elt F))
  :: StableHlo.nullary main_cst_2 (constant S_ .f32 0x40C00000#32)
  :: StableHlo.unary main_cst_2 main_v4 (broadcastInDim S4096x256 ![] bcast_S_S4096x256 : (⟨S_, .f32⟩ : BufTy).Contents (Elt F) → (⟨S4096x256, .f32⟩ : BufTy).Contents (Elt F))
  :: StableHlo.binary main_v3 main_v4 main_v5 (Host.divf : (⟨S4096x256, .f32⟩ : BufTy).Contents (Elt F) → (⟨S4096x256, .f32⟩ : BufTy).Contents (Elt F) → (⟨S4096x256, .f32⟩ : BufTy).Contents (Elt F))
  :: StableHlo.nullary main_cst_3 (constant S_ .f32 0x2B8CBCCC#32)
  :: StableHlo.unary main_cst_3 main_v6 (broadcastInDim S4096x256 ![] bcast_S_S4096x256 : (⟨S_, .f32⟩ : BufTy).Contents (Elt F) → (⟨S4096x256, .f32⟩ : BufTy).Contents (Elt F))
  :: StableHlo.binary main_v5 main_v6 main_v7 (maximumf : (⟨S4096x256, .f32⟩ : BufTy).Contents (Elt F) → (⟨S4096x256, .f32⟩ : BufTy).Contents (Elt F) → (⟨S4096x256, .f32⟩ : BufTy).Contents (Elt F))
  :: StableHlo.nullary main_cst_4 (constant S_ .f32 0x0DA24260#32)
  :: StableHlo.unary main_cst_4 main_v8 (broadcastInDim S4096x256 ![] bcast_S_S4096x256 : (⟨S_, .f32⟩ : BufTy).Contents (Elt F) → (⟨S4096x256, .f32⟩ : BufTy).Contents (Elt F))
  :: StableHlo.binary main_v7 main_v8 main_v9 (maximumf : (⟨S4096x256, .f32⟩ : BufTy).Contents (Elt F) → (⟨S4096x256, .f32⟩ : BufTy).Contents (Elt F) → (⟨S4096x256, .f32⟩ : BufTy).Contents (Elt F))
  :: StableHlo.unary main_v9 main_v10 (Host.log : (⟨S4096x256, .f32⟩ : BufTy).Contents (Elt F) → (⟨S4096x256, .f32⟩ : BufTy).Contents (Elt F))
  :: StableHlo.nullary main_cst_5 (constant S_ .f32 0x40000000#32)
  :: StableHlo.unary main_cst_5 main_v11 (Host.log : (⟨S_, .f32⟩ : BufTy).Contents (Elt F) → (⟨S_, .f32⟩ : BufTy).Contents (Elt F))
  :: StableHlo.unary main_v11 main_v12 (broadcastInDim S4096x256 ![] bcast_S_S4096x256 : (⟨S_, .f32⟩ : BufTy).Contents (Elt F) → (⟨S4096x256, .f32⟩ : BufTy).Contents (Elt F))
  :: StableHlo.binary main_v10 main_v12 main_v13 (Host.divf : (⟨S4096x256, .f32⟩ : BufTy).Contents (Elt F) → (⟨S4096x256, .f32⟩ : BufTy).Contents (Elt F) → (⟨S4096x256, .f32⟩ : BufTy).Contents (Elt F))
  :: StableHlo.unary main_v13 main_v14 (Host.floor : (⟨S4096x256, .f32⟩ : BufTy).Contents (Elt F) → (⟨S4096x256, .f32⟩ : BufTy).Contents (Elt F))
  :: StableHlo.nullary main_cst_6 (constant S_ .f32 0xC0C00000#32)
  :: StableHlo.nullary main_cst_7 (constant S_ .f32 0x41000000#32)
  :: StableHlo.TRef.unary (.of main_cst_6 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S4096x256, .f32⟩) (broadcastInDim S4096x256 ![] bcast_S_S4096x256)
  :: StableHlo.TRef.binary (.of main_call0_v1 : StableHlo.TRef sig ⟨S4096x256, .f32⟩) (.of main_v14 : StableHlo.TRef sig ⟨S4096x256, .f32⟩) (.of main_call0_v2 : StableHlo.TRef sig ⟨S4096x256, .f32⟩) maximumf
  :: StableHlo.TRef.unary (.of main_cst_7 : StableHlo.TRef sig ⟨S_, .f32⟩) (.of main_call0_v3 : StableHlo.TRef sig ⟨S_, .f32⟩) id
  :: StableHlo.TRef.unary (.of main_call0_v3 : StableHlo.TRef sig ⟨S_, .f32⟩) (.of main_call0_v4 : StableHlo.TRef sig ⟨S4096x256, .f32⟩) (broadcastInDim S4096x256 ![] bcast_S_S4096x256)
  :: StableHlo.TRef.binary (.of main_call0_v4 : StableHlo.TRef sig ⟨S4096x256, .f32⟩) (.of main_call0_v2 : StableHlo.TRef sig ⟨S4096x256, .f32⟩) (.of main_v15 : StableHlo.TRef sig ⟨S4096x256, .f32⟩) minimumf
  :: StableHlo.nullary main_cst_8 (constant S_ .f32 0x40400000#32)
  :: StableHlo.unary main_cst_8 main_v16 (broadcastInDim S4096x256 ![] bcast_S_S4096x256 : (⟨S_, .f32⟩ : BufTy).Contents (Elt F) → (⟨S4096x256, .f32⟩ : BufTy).Contents (Elt F))
  :: StableHlo.binary main_v15 main_v16 main_v17 (subf : (⟨S4096x256, .f32⟩ : BufTy).Contents (Elt F) → (⟨S4096x256, .f32⟩ : BufTy).Contents (Elt F) → (⟨S4096x256, .f32⟩ : BufTy).Contents (Elt F))
  :: StableHlo.nullary main_cst_9 (constant S_ .f32 0x3F317218#32)
  :: StableHlo.unary main_cst_9 main_v18 (broadcastInDim S4096x256 ![] bcast_S_S4096x256 : (⟨S_, .f32⟩ : BufTy).Contents (Elt F) → (⟨S4096x256, .f32⟩ : BufTy).Contents (Elt F))
  :: StableHlo.binary main_v18 main_v17 main_v19 (mulf : (⟨S4096x256, .f32⟩ : BufTy).Contents (Elt F) → (⟨S4096x256, .f32⟩ : BufTy).Contents (Elt F) → (⟨S4096x256, .f32⟩ : BufTy).Contents (Elt F))
  :: StableHlo.unary main_v19 main_v20 (Host.exp : (⟨S4096x256, .f32⟩ : BufTy).Contents (Elt F) → (⟨S4096x256, .f32⟩ : BufTy).Contents (Elt F))
  :: StableHlo.binary main_v7 main_v20 main_v21 (Host.divf : (⟨S4096x256, .f32⟩ : BufTy).Contents (Elt F) → (⟨S4096x256, .f32⟩ : BufTy).Contents (Elt F) → (⟨S4096x256, .f32⟩ : BufTy).Contents (Elt F))
  :: StableHlo.TRef.unary (.of main_v21 : StableHlo.TRef sig ⟨S4096x256, .f32⟩) (.of main_v22 : StableHlo.TRef sig ⟨S4096x256, .f32⟩) Host.roundeven
  :: StableHlo.binary main_v22 main_v20 main_v23 (mulf : (⟨S4096x256, .f32⟩ : BufTy).Contents (Elt F) → (⟨S4096x256, .f32⟩ : BufTy).Contents (Elt F) → (⟨S4096x256, .f32⟩ : BufTy).Contents (Elt F))
  :: StableHlo.nullary main_cst_10 (constant S_ .f32 0x00000000#32)
  :: StableHlo.nullary main_cst_11 (constant S_ .f32 0x43E00000#32)
  :: StableHlo.TRef.unary (.of main_cst_10 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S4096x256, .f32⟩) (broadcastInDim S4096x256 ![] bcast_S_S4096x256)
  :: StableHlo.TRef.binary (.of main_call2_v1 : StableHlo.TRef sig ⟨S4096x256, .f32⟩) (.of main_v23 : StableHlo.TRef sig ⟨S4096x256, .f32⟩) (.of main_call2_v2 : StableHlo.TRef sig ⟨S4096x256, .f32⟩) maximumf
  :: StableHlo.TRef.unary (.of main_cst_11 : StableHlo.TRef sig ⟨S_, .f32⟩) (.of main_call2_v3 : StableHlo.TRef sig ⟨S_, .f32⟩) id
  :: StableHlo.TRef.unary (.of main_call2_v3 : StableHlo.TRef sig ⟨S_, .f32⟩) (.of main_call2_v4 : StableHlo.TRef sig ⟨S4096x256, .f32⟩) (broadcastInDim S4096x256 ![] bcast_S_S4096x256)
  :: StableHlo.TRef.binary (.of main_call2_v4 : StableHlo.TRef sig ⟨S4096x256, .f32⟩) (.of main_call2_v2 : StableHlo.TRef sig ⟨S4096x256, .f32⟩) (.of main_v24 : StableHlo.TRef sig ⟨S4096x256, .f32⟩) minimumf
  :: StableHlo.nullary main_cst_12 (constant S_ .f32 0x3B000000#32)
  :: StableHlo.unary main_cst_12 main_v25 (broadcastInDim S4096x256 ![] bcast_S_S4096x256 : (⟨S_, .f32⟩ : BufTy).Contents (Elt F) → (⟨S4096x256, .f32⟩ : BufTy).Contents (Elt F))
  :: StableHlo.binary main_v24 main_v25 main_v26 (maximumf : (⟨S4096x256, .f32⟩ : BufTy).Contents (Elt F) → (⟨S4096x256, .f32⟩ : BufTy).Contents (Elt F) → (⟨S4096x256, .f32⟩ : BufTy).Contents (Elt F))
  :: StableHlo.unary main_v26 main_v27 (broadcastInDim S4096x256x1 ![0, 1] bcast_S4096x256_S4096x256x1_0_1 : (⟨S4096x256, .f32⟩ : BufTy).Contents (Elt F) → (⟨S4096x256x1, .f32⟩ : BufTy).Contents (Elt F))
  :: StableHlo.unary main_v27 main_v28 (broadcastInDim S4096x256x16 ![0, 1, 2] bcast_S4096x256x1_S4096x256x16_0_1_2 : (⟨S4096x256x1, .f32⟩ : BufTy).Contents (Elt F) → (⟨S4096x256x16, .f32⟩ : BufTy).Contents (Elt F))
  :: StableHlo.binary main_v1 main_v28 main_v29 (Host.divf : (⟨S4096x256x16, .f32⟩ : BufTy).Contents (Elt F) → (⟨S4096x256x16, .f32⟩ : BufTy).Contents (Elt F) → (⟨S4096x256x16, .f32⟩ : BufTy).Contents (Elt F))
  :: StableHlo.unary main_v29 main_v30 (Host.absf : (⟨S4096x256x16, .f32⟩ : BufTy).Contents (Elt F) → (⟨S4096x256x16, .f32⟩ : BufTy).Contents (Elt F))
  :: StableHlo.unary main_v30 main_v31 (broadcastInDim S4096x256x16x1 ![0, 1, 2] bcast_S4096x256x16_S4096x256x16x1_0_1_2 : (⟨S4096x256x16, .f32⟩ : BufTy).Contents (Elt F) → (⟨S4096x256x16x1, .f32⟩ : BufTy).Contents (Elt F))
  :: StableHlo.unary main_cst main_v32 (broadcastInDim S1x1x1x7 ![3] bcast_S7_S1x1x1x7_3 : (⟨S7, .f32⟩ : BufTy).Contents (Elt F) → (⟨S1x1x1x7, .f32⟩ : BufTy).Contents (Elt F))
  :: StableHlo.unary main_v31 main_v33 (broadcastInDim S4096x256x16x7 ![0, 1, 2, 3] bcast_S4096x256x16x1_S4096x256x16x7_0_1_2_3 : (⟨S4096x256x16x1, .f32⟩ : BufTy).Contents (Elt F) → (⟨S4096x256x16x7, .f32⟩ : BufTy).Contents (Elt F))
  :: StableHlo.unary main_v32 main_v34 (broadcastInDim S4096x256x16x7 ![0, 1, 2, 3] bcast_S1x1x1x7_S4096x256x16x7_0_1_2_3 : (⟨S1x1x1x7, .f32⟩ : BufTy).Contents (Elt F) → (⟨S4096x256x16x7, .f32⟩ : BufTy).Contents (Elt F))
  :: StableHlo.binary main_v33 main_v34 main_v35 (cmpf .ogt : (⟨S4096x256x16x7, .f32⟩ : BufTy).Contents (Elt F) → (⟨S4096x256x16x7, .f32⟩ : BufTy).Contents (Elt F) → (⟨S4096x256x16x7, .i1⟩ : BufTy).Contents (Elt F))
  :: StableHlo.unary main_v35 main_v36 ((extui 32 · natLt_1_32) : (⟨S4096x256x16x7, .i1⟩ : BufTy).Contents (Elt F) → (⟨S4096x256x16x7, .i32⟩ : BufTy).Contents (Elt F))
  :: StableHlo.nullary main_c (constantI S_ 32 0#32)
  :: StableHlo.binary main_v36 main_c main_v37 ((fun x v => Host.reduce IntOp.addi x v reducesTo_S4096x256x16x7_S4096x256x16_d3 h_S_) : (⟨S4096x256x16x7, .i32⟩ : BufTy).Contents (Elt F) → (⟨S_, .i32⟩ : BufTy).Contents (Elt F) → (⟨S4096x256x16, .i32⟩ : BufTy).Contents (Elt F))
  :: StableHlo.unary main_v29 main_v38 (Host.sign : (⟨S4096x256x16, .f32⟩ : BufTy).Contents (Elt F) → (⟨S4096x256x16, .f32⟩ : BufTy).Contents (Elt F))
  :: StableHlo.nullary main_c_13 (constantI S_ 32 0#32)
  :: StableHlo.unary main_c_13 main_v39 (broadcastInDim S4096x256x16 ![] bcast_S_S4096x256x16 : (⟨S_, .i32⟩ : BufTy).Contents (Elt F) → (⟨S4096x256x16, .i32⟩ : BufTy).Contents (Elt F))
  :: StableHlo.binary main_v37 main_v39 main_v40 (cmpi .slt : (⟨S4096x256x16, .i32⟩ : BufTy).Contents (Elt F) → (⟨S4096x256x16, .i32⟩ : BufTy).Contents (Elt F) → (⟨S4096x256x16, .i1⟩ : BufTy).Contents (Elt F))
  :: StableHlo.nullary main_c_14 (constantI S_ 32 8#32)
  :: StableHlo.unary main_c_14 main_v41 (broadcastInDim S4096x256x16 ![] bcast_S_S4096x256x16 : (⟨S_, .i32⟩ : BufTy).Contents (Elt F) → (⟨S4096x256x16, .i32⟩ : BufTy).Contents (Elt F))
  :: StableHlo.binary main_v37 main_v41 main_v42 (addi : (⟨S4096x256x16, .i32⟩ : BufTy).Contents (Elt F) → (⟨S4096x256x16, .i32⟩ : BufTy).Contents (Elt F) → (⟨S4096x256x16, .i32⟩ : BufTy).Contents (Elt F))
  :: StableHlo.ternary main_v40 main_v42 main_v37 main_v43 (select : (⟨S4096x256x16, .i1⟩ : BufTy).Contents (Elt F) → (⟨S4096x256x16, .i32⟩ : BufTy).Contents (Elt F) → (⟨S4096x256x16, .i32⟩ : BufTy).Contents (Elt F) → (⟨S4096x256x16, .i32⟩ : BufTy).Contents (Elt F))
  :: StableHlo.unary main_v43 main_v44 (broadcastInDim S4096x256x16x1 ![0, 1, 2] bcast_S4096x256x16_S4096x256x16x1_0_1_2 : (⟨S4096x256x16, .i32⟩ : BufTy).Contents (Elt F) → (⟨S4096x256x16x1, .i32⟩ : BufTy).Contents (Elt F))
  :: StableHlo.binary main_cst_0 main_v44 main_v45 ((fun x i => Host.gather gather_S8_S4096x256x16x1_S4096x256x16_n_0_n_n_0_3_1 x i) : (⟨S8, .f32⟩ : BufTy).Contents (Elt F) → (⟨S4096x256x16x1, .i32⟩ : BufTy).Contents (Elt F) → (⟨S4096x256x16, .f32⟩ : BufTy).Contents (Elt F))
  :: StableHlo.binary main_v38 main_v45 main_v46 (mulf : (⟨S4096x256x16, .f32⟩ : BufTy).Contents (Elt F) → (⟨S4096x256x16, .f32⟩ : BufTy).Contents (Elt F) → (⟨S4096x256x16, .f32⟩ : BufTy).Contents (Elt F))
  :: StableHlo.unary main_v26 main_v47 (broadcastInDim S4096x256x1 ![0, 1] bcast_S4096x256_S4096x256x1_0_1 : (⟨S4096x256, .f32⟩ : BufTy).Contents (Elt F) → (⟨S4096x256x1, .f32⟩ : BufTy).Contents (Elt F))
  :: StableHlo.unary main_v47 main_v48 (broadcastInDim S4096x256x16 ![0, 1, 2] bcast_S4096x256x1_S4096x256x16_0_1_2 : (⟨S4096x256x1, .f32⟩ : BufTy).Contents (Elt F) → (⟨S4096x256x16, .f32⟩ : BufTy).Contents (Elt F))
  :: StableHlo.binary main_v46 main_v48 main_v49 (mulf : (⟨S4096x256x16, .f32⟩ : BufTy).Contents (Elt F) → (⟨S4096x256x16, .f32⟩ : BufTy).Contents (Elt F) → (⟨S4096x256x16, .f32⟩ : BufTy).Contents (Elt F))
  :: StableHlo.reshape main_v49 main_v50 rfl shapeCasts_S4096x256x16_S4096x4096
  :: StableHlo.reshape main_arg1 main_v51 rfl shapeCasts_S16384x4096_S16384x256x16
  :: StableHlo.unary main_arg2 main_v52 (broadcastInDim S16384x256x1 ![0, 1] bcast_S16384x256_S16384x256x1_0_1 : (⟨S16384x256, .f32⟩ : BufTy).Contents (Elt F) → (⟨S16384x256x1, .f32⟩ : BufTy).Contents (Elt F))
  :: StableHlo.unary main_v52 main_v53 (broadcastInDim S16384x256x16 ![0, 1, 2] bcast_S16384x256x1_S16384x256x16_0_1_2 : (⟨S16384x256x1, .f32⟩ : BufTy).Contents (Elt F) → (⟨S16384x256x16, .f32⟩ : BufTy).Contents (Elt F))
  :: StableHlo.binary main_v51 main_v53 main_v54 (mulf : (⟨S16384x256x16, .f32⟩ : BufTy).Contents (Elt F) → (⟨S16384x256x16, .f32⟩ : BufTy).Contents (Elt F) → (⟨S16384x256x16, .f32⟩ : BufTy).Contents (Elt F))
  :: StableHlo.reshape main_v54 main_v55 rfl shapeCasts_S16384x256x16_S16384x4096
  :: StableHlo.unary main_v55 main_v56 ((transpose S4096x16384 [1, 0] · transposes_S16384x4096_S4096x16384_1_0) : (⟨S16384x4096, .f32⟩ : BufTy).Contents (Elt F) → (⟨S4096x16384, .f32⟩ : BufTy).Contents (Elt F))
  :: StableHlo.binary main_v50 main_v56 main_v57 ((fun l r => Host.dotGeneral dot_S4096x4096_S4096x16384_S4096x16384_1_0_0_1_n_n none l r) : (⟨S4096x4096, .f32⟩ : BufTy).Contents (Elt F) → (⟨S4096x16384, .f32⟩ : BufTy).Contents (Elt F) → (⟨S4096x16384, .f32⟩ : BufTy).Contents (Elt F))
  :: StableHlo.nullary main_cst_15 (constant S_ .f32 0x00000000#32)
  :: StableHlo.unary main_cst_15 main_v58 (broadcastInDim S4096x16384 ![] bcast_S_S4096x16384 : (⟨S_, .f32⟩ : BufTy).Contents (Elt F) → (⟨S4096x16384, .f32⟩ : BufTy).Contents (Elt F))
  :: StableHlo.binary main_v58 main_v57 main_v59 (addf : (⟨S4096x16384, .f32⟩ : BufTy).Contents (Elt F) → (⟨S4096x16384, .f32⟩ : BufTy).Contents (Elt F) → (⟨S4096x16384, .f32⟩ : BufTy).Contents (Elt F))
  :: StableHlo.unary main_arg3 main_v60 (broadcastInDim S1x16384 ![1] bcast_S16384_S1x16384_1 : (⟨S16384, .f32⟩ : BufTy).Contents (Elt F) → (⟨S1x16384, .f32⟩ : BufTy).Contents (Elt F))
  :: StableHlo.unary main_v60 main_v61 (broadcastInDim S4096x16384 ![0, 1] bcast_S1x16384_S4096x16384_0_1 : (⟨S1x16384, .f32⟩ : BufTy).Contents (Elt F) → (⟨S4096x16384, .f32⟩ : BufTy).Contents (Elt F))
  :: StableHlo.binary main_v59 main_v61 main_v62 (addf : (⟨S4096x16384, .f32⟩ : BufTy).Contents (Elt F) → (⟨S4096x16384, .f32⟩ : BufTy).Contents (Elt F) → (⟨S4096x16384, .f32⟩ : BufTy).Contents (Elt F))
  :: StableHlo.reshape main_v62 main_v63 rfl shapeCasts_S4096x16384_S1x4096x16384
  :: [] )

-- ninety-two binds re-associated: the rewrite under the chain recurses once per statement
set_option maxRecDepth 4096 in
set_option maxHeartbeats 4000000 in
/-- @main is that straight line: its two windows and the functions' bodies unfolded at their calls, both sides are
    one chain of steps once sequencing is re-associated. -/
theorem main_eq (c : Dev nD) : main (F := F) c = seq ops := by
  simp only [main, main_part0, main_part1, fn_clip.body, fn_round.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., nullary_bufs_sub .., reshape_bufs_sub .., reshape_bufs_sub .., unary_bufs_sub .., nullary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., binary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., binary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., unary_bufs_sub .., unary_bufs_sub .., unary_bufs_sub .., binary_bufs_sub ..,
    unary_bufs_sub .., nullary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., reshape_bufs_sub ..,
    reshape_bufs_sub .., unary_bufs_sub .., unary_bufs_sub .., binary_bufs_sub .., reshape_bufs_sub .., unary_bufs_sub ..,
    binary_bufs_sub .., nullary_bufs_sub .., unary_bufs_sub .., binary_bufs_sub .., unary_bufs_sub .., unary_bufs_sub ..,
    binary_bufs_sub .., reshape_bufs_sub ..⟩

attribute [local irreducible] Host.reduce Host.gather in
set_option maxRecDepth 16384 in
set_option maxHeartbeats 8000000 in
/-- On every device, for any float values, from any memory with zero counters: every weakly fair execution of
    @main terminates with the result buffer at the closing contraction of the dequantised activations and weights
    plus the bias, and the four arguments unchanged. The fold at the result buffer is that term by computation:
    each operation's result is read at its own buffer and passed over at every other, and what is left is the
    composition the three definitions unfold to; the reductions and the gather stay folded (the equation never
    looks inside them; the contraction is a primitive of the float values and has nothing to unfold). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = Quant.closing (Quant.xdeq (m ((c.tc : Thread nD τ).loc main_arg0)))
              (Quant.wdeq (m ((c.tc : Thread nD τ).loc main_arg1)) (m ((c.tc : Thread nD τ).loc main_arg2)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v63).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.KPieces.lean ====
/-
  What each control case of the kernel body leaves behind, as values.

  The body keeps a [512, 1024] accumulator across the four reduction steps of one output block. At the first step it
  stores zeros and then adds the step's product to what it reads back; at the later steps it adds the product to what
  the step before left; at the last step it also writes the accumulator plus the bias row to the output block. The
  generated frame records, per case, the list of stores the body performed; read back, those lists are the body's
  payloads applied to the step's input blocks (and, after the first step, to the accumulator the step before left).
-/
import proofs.«109955_j29618094473423_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz : (![0, 0] : Fin 2 → Nat) = fun _ => 0 := funext fun a => by fin_cases a <;> rfl

/-- First reduction step: the accumulator ends at `zeros + a · bᵀ` (the zeros stored first and read back). -/
theorem scratch_A (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S512x1024) hz,
    View.ld_unit_zero (S := S1024x1024) hz]

/-- A middle reduction step: the accumulator ends at `previous + a · bᵀ`. -/
theorem scratch_B (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .bf16) (x1 : Vec F S1024x1024 .bf16) (x2 : Vec F S1x1024 .f32) (xs0 : Vec F S512x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x1024) hz,
    View.ld_unit_zero (S := S1024x1024) hz]

/-- The last reduction step leaves the accumulator at `previous + a · bᵀ` too, -/
theorem scratch_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .bf16) (x1 : Vec F S1024x1024 .bf16) (x2 : Vec F S1x1024 .f32) (xs0 : Vec F S512x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S512x1024) hz,
    View.ld_unit_zero (S := S1024x1024) hz]

/-- and writes that accumulator plus the bias row to the output block. -/
theorem out_C (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .bf16) (x1 : Vec F S1024x1024 .bf16) (x2 : Vec F S1x1024 .f32) (xs0 : Vec F S512x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.readCov_unit_zero (S := S512x1024) _ hz, View.ld_unit_zero (S := S512x1024) hz,
    View.ld_unit_zero (S := S1024x1024) hz, View.ld_unit_zero (S := S1x1024) hz]

end Cert.KernelIdeal.Pieces

end
-- ==== Proof.KPay.lean ====
import proofs.«109955_j29618094473423_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's three stored values, read at one entry

At the ideal instance a float is an extended real and every operation is the textbook one. The body stores three
values into its [512,1024] blocks:

* a block of zeros (the accumulator's initial value);
* `acc + a · bᵀ`: the accumulator plus the product of a [512,1024] block with the transpose of a [1024,1024] block,
  the contraction running over the second axis of both, so entry (p, q) is `acc p q + ∑ κ, a p κ * b q κ`;
* `acc + bias`: the accumulator plus a [1,1024] row repeated down the 512 rows, so entry (p, q) is
  `acc p q + bias 0 q`.

Every shape cast in the body is between equal shapes, hence the identity.
-/

noncomputable section

namespace Cert.KernelIdeal.Pay

open Idealize.ShloMosaic Idealize.ShloMosaic.ValueIdx Cert.KernelIdeal Cert.KernelIdeal.Gen

open scoped BigOperators

/-- The zero block: every entry is the extended real the zero word encodes, which is 0. -/
theorem pay1_apply (p : Fin 512) (q : Fin 1024) :
    (k0_pay1 (F := Ideal)) (ix2 p q) = 0 := by
  unfold k0_pay1
  show shapeCast S512x1024 (broadcast S512x1024 (Scalar.ofBits (F := Ideal) .f32 0x00000000#32))
    shapeCasts_S512x1024_S512x1024 (ix2 p q) = 0
  rw [shapeCast_self]
  exact Ideal.ofBits_zero_f32

/-! ## The product's operand indices, axis by axis

The product contracts axis 1 of both operands and keeps axis 0 of each: at output entry `j` and contraction position
`k` the left operand is read at `(j 0, k)` and the right operand at `(j 1, k)`. -/

/-- Left operand, kept axis: the output's row. -/
theorem lhs_axis0 (j : S512x1024.Idx) (k : dot_S512x1024_S1024x1024_S512x1024_1_1_0_0_n_n.contr.Idx) :
    (dot_S512x1024_S1024x1024_S512x1024_1_1_0_0_n_n.lhsIdx j k 0).val = (j 0).val := by
  rfl

/-- Left operand, contracted axis: the contraction position. -/
theorem lhs_axis1 (j : S512x1024.Idx) (k : dot_S512x1024_S1024x1024_S512x1024_1_1_0_0_n_n.contr.Idx) :
    (dot_S512x1024_S1024x1024_S512x1024_1_1_0_0_n_n.lhsIdx j k 1).val = (k ⟨0, by decide⟩).val :=
  DotDims.lhsIdx_val_of_single _ (cl := 1) rfl j k

/-- Right operand, kept axis: the output's column. -/
theorem rhs_axis0 (j : S512x1024.Idx) (k : dot_S512x1024_S1024x1024_S512x1024_1_1_0_0_n_n.contr.Idx) :
    (dot_S512x1024_S1024x1024_S512x1024_1_1_0_0_n_n.rhsIdx j k 0).val = (j 1).val := by
  rfl

/-- Right operand, contracted axis: the contraction position. -/
theorem rhs_axis1 (j : S512x1024.Idx) (k : dot_S512x1024_S1024x1024_S512x1024_1_1_0_0_n_n.contr.Idx) :
    (dot_S512x1024_S1024x1024_S512x1024_1_1_0_0_n_n.rhsIdx j k 1).val = (k ⟨0, by decide⟩).val :=
  DotDims.rhsIdx_val_of_single _ (cr := 1) rfl j k

/-! ## The accumulator plus the product -/

/-- Entry (p, q) of `acc + a · bᵀ`: the contraction's one-axis position set is `Fin 1024`, and through that bijection
    the left operand is read at (p, κ), the right one at (q, κ). -/
theorem pay2_apply (acc : FVec Ideal S512x1024 .f32) (a : FVec Ideal S512x1024 .bf16) (b : FVec Ideal S1024x1024 .bf16)
    (p : Fin 512) (q : Fin 1024) :
    k0_pay2 (F := Ideal) acc a b (ix2 p q) = acc (ix2 p q) + ∑ κ : Fin 1024, a (ix2 p κ) * b (ix2 q κ) := by
  unfold k0_pay2
  show shapeCast S512x1024
      (addf acc (matmul dot_S512x1024_S1024x1024_S512x1024_1_1_0_0_n_n none
        (shapeCast S512x1024 a shapeCasts_S512x1024_S512x1024)
        (shapeCast S1024x1024 b shapeCasts_S1024x1024_S1024x1024)
        (constant (F := Ideal) S512x1024 .f32 0x00000000#32)))
      shapeCasts_S512x1024_S512x1024 (ix2 p q) = _
  rw [shapeCast_self, shapeCast_self, shapeCast_self, addf_apply]
  refine congrArg (acc (ix2 p q) + ·) ?_
  refine (Ideal.matmul_constant_zero_apply dot_S512x1024_S1024x1024_S512x1024_1_1_0_0_n_n none a b (ix2 p q)).trans ?_
  rw [← Equiv.sum_comp (contrEquiv1 dot_S512x1024_S1024x1024_S512x1024_1_1_0_0_n_n 1024 rfl rfl).symm]
  refine Finset.sum_congr rfl fun κ _ => ?_
  have hk := contrEquiv1_symm_val dot_S512x1024_S1024x1024_S512x1024_1_1_0_0_n_n 1024 rfl rfl κ
  have hl : dot_S512x1024_S1024x1024_S512x1024_1_1_0_0_n_n.lhsIdx (ix2 p q)
      ((contrEquiv1 dot_S512x1024_S1024x1024_S512x1024_1_1_0_0_n_n 1024 rfl rfl).symm κ) = ix2 p κ := by
    funext ax
    refine Fin.ext ?_
    match ax with
    | ⟨0, _⟩ => exact lhs_axis0 _ _
    | ⟨1, _⟩ => exact (lhs_axis1 _ _).trans hk
  have hr : dot_S512x1024_S1024x1024_S512x1024_1_1_0_0_n_n.rhsIdx (ix2 p q)
      ((contrEquiv1 dot_S512x1024_S1024x1024_S512x1024_1_1_0_0_n_n 1024 rfl rfl).symm κ) = ix2 q κ := by
    funext ax
    refine Fin.ext ?_
    match ax with
    | ⟨0, _⟩ => exact rhs_axis0 _ _
    | ⟨1, _⟩ => exact (rhs_axis1 _ _).trans hk
  rw [hl, hr]

/-! ## The accumulator plus the bias row -/

/-- Entry (p, q) of `acc + bias`: the row is repeated down the rows, so the entry reads the row's column q. -/
theorem pay3_apply (acc : FVec Ideal S512x1024 .f32) (bias : FVec Ideal S1x1024 .f32) (p : Fin 512) (q : Fin 1024) :
    k0_pay3 (F := Ideal) acc bias (ix2 p q) = acc (ix2 p q) + bias (ix2 (0 : Fin 1) q) := by
  unfold k0_pay3
  show addf acc (broadcastTo S512x1024 (shapeCast S1x1024 bias shapeCasts_S1x1024_S1x1024)
      broadcasts_S1x1024_S512x1024) (ix2 p q) = _
  rw [shapeCast_self, addf_apply]
  exact congrArg (acc (ix2 p q) + ·) (broadcastTo_1b_ab_apply bias broadcasts_S1x1024_S512x1024 p q)

end Cert.KernelIdeal.Pay

end
-- ==== Proof.KBlocks.lean ====
/-
  The pipeline's input blocks, read entry by entry.

  The grid has 8 × 16 × 4 points, the reduction step `k` fastest: point `t` is row block `t / 64`, column block
  `t / 4 % 16`, step `t % 4`. At that point the kernel sees rows `512 · (t / 64) + p` of the left operand at columns
  `1024 · (t % 4) + κ`, rows `1024 · (t / 4 % 16) + q` of the right operand at the same columns, and entries
  `1024 · (t / 4 % 16) + q` of the bias row. Arrays are read through total functions of two naturals (zero outside the
  array), so that sums over a block's columns can be re-indexed without carrying bounds.
-/
import proofs.«109955_j29618094473423_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

/-- Where each window's block sits at grid point `t`, decided once over the 512 points. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = 0 ∧ win0_2.index t (1 : Fin 2) = t.val / 4 % 16
    ∧ win0_3.index t (0 : Fin 2) = t.val / 64 ∧ win0_3.index t (1 : Fin 2) = t.val / 4 % 16 :=
  (by decide +kernel : ∀ t : Fin grid0.N, _)

/-- A [R, C] array read at two naturals; zero outside. -/
def rd {R C : ℕ} {φ : FTy} (X : FVec Ideal (⟨2, ![R, C]⟩ : Shape) φ) (r k : ℕ) : EReal :=
  if h : r < R ∧ k < C then X (ix2 ⟨r, h.1⟩ ⟨k, h.2⟩) else 0

theorem rd_of_lt {R C : ℕ} {φ : FTy} (X : FVec Ideal (⟨2, ![R, C]⟩ : Shape) φ) (r k : ℕ) (hr : r < R) (hk : k < C) :
    rd X r k = X (ix2 ⟨r, hr⟩ ⟨k, hk⟩) := dif_pos ⟨hr, hk⟩

variable (m : (ℓ : Loc nD τ sig) → Buf (Elt Ideal) ℓ)

/-- The three staged arrays as the region finds them, and the three input blocks at a point, at their literal types. -/
abbrev lhsArr (c : Dev nD) : FVec Ideal S4096x4096 .bf16 := V m c main_v51
abbrev rhsArr (c : Dev nD) : FVec Ideal S16384x4096 .bf16 := V m c main_v57
abbrev biasArr (c : Dev nD) : FVec Ideal S1x16384 .f32 := V m c main_v58
abbrev lhsBlk (c : Dev nD) (t : Fin cfg0.N) : FVec Ideal S512x1024 .bf16 := iblk m c 0 t
abbrev rhsBlk (c : Dev nD) (t : Fin cfg0.N) : FVec Ideal S1024x1024 .bf16 := iblk m c 1 t
abbrev biasBlk (c : Dev nD) (t : Fin cfg0.N) : FVec Ideal S1x1024 .f32 := iblk m c 2 t

theorem lhsBlk_apply (c : Dev nD) (t : Fin cfg0.N) (p : Fin 512) (κ : Fin 1024) :
    lhsBlk m c t (ix2 p κ) = rd (lhsArr m c) (512 * (t.val / 64) + p.val) (1024 * (t.val % 4) + κ.val) := by
  have hN : t.val < 512 := lt_of_lt_of_eq t.isLt (show cfg0.N = 512 from N_0)
  obtain ⟨h00, h01, -⟩ := idx_facts t
  rw [rd_of_lt _ _ _ (by omega) (by omega)]
  show iblk m c 0 t (ix2 p κ) = V m c main_v51 _
  unfold iblk
  rw [View.read_apply]
  show V m c main_v51 _ = V m c main_v51 _
  refine congrArg (V m c main_v51) (funext fun a => Fin.ext ?_)
  match a with
  | ⟨0, _⟩ => show win0_0.index t 0 * 512 + 1 * p.val = 512 * (t.val / 64) + p.val; rw [h00]; omega
  | ⟨1, _⟩ => show win0_0.index t 1 * 1024 + 1 * κ.val = 1024 * (t.val % 4) + κ.val; rw [h01]; omega

theorem rhsBlk_apply (c : Dev nD) (t : Fin cfg0.N) (q : Fin 1024) (κ : Fin 1024) :
    rhsBlk m c t (ix2 q κ) = rd (rhsArr m c) (1024 * (t.val / 4 % 16) + q.val) (1024 * (t.val % 4) + κ.val) := by
  have hN : t.val < 512 := lt_of_lt_of_eq t.isLt (show cfg0.N = 512 from N_0)
  obtain ⟨-, -, h10, h11, -⟩ := idx_facts t
  rw [rd_of_lt _ _ _ (by omega) (by omega)]
  show iblk m c 1 t (ix2 q κ) = V m c main_v57 _
  unfold iblk
  rw [View.read_apply]
  show V m c main_v57 _ = V m c main_v57 _
  refine congrArg (V m c main_v57) (funext fun a => Fin.ext ?_)
  match a with
  | ⟨0, _⟩ => show win0_1.index t 0 * 1024 + 1 * q.val = 1024 * (t.val / 4 % 16) + q.val; rw [h10]; omega
  | ⟨1, _⟩ => show win0_1.index t 1 * 1024 + 1 * κ.val = 1024 * (t.val % 4) + κ.val; rw [h11]; omega

theorem biasBlk_apply (c : Dev nD) (t : Fin cfg0.N) (q : Fin 1024) :
    biasBlk m c t (ix2 (0 : Fin 1) q) = rd (biasArr m c) 0 (1024 * (t.val / 4 % 16) + q.val) := by
  have hN : t.val < 512 := lt_of_lt_of_eq t.isLt (show cfg0.N = 512 from N_0)
  obtain ⟨-, -, -, -, h20, h21, -⟩ := idx_facts t
  rw [rd_of_lt _ _ _ (by omega) (by omega)]
  show iblk m c 2 t (ix2 (0 : Fin 1) q) = V m c main_v58 _
  unfold iblk
  rw [View.read_apply]
  show V m c main_v58 _ = V m c main_v58 _
  refine congrArg (V m c main_v58) (funext fun a => Fin.ext ?_)
  match a with
  | ⟨0, _⟩ => show win0_2.index t 0 * 1 + 1 * 0 = 0; rw [h20]
  | ⟨1, _⟩ => show win0_2.index t 1 * 1024 + 1 * q.val = 1024 * (t.val / 4 % 16) + q.val; rw [h21]; omega

end Cert.KernelIdeal.Blocks

end
-- ==== Proof.LibBlockSum.lean ====
/-
  Sums over consecutive naturals cut into equal blocks, in any commutative additive monoid (no subtraction, no
  finiteness: the extended reals qualify).
-/
import Mathlib.Algebra.BigOperators.Group.Finset.Basic
import Mathlib.Algebra.BigOperators.Fin

namespace Cert.Lib.BlockSum

open Finset

/-- A sum over the first `B * n` naturals is the sum, block by block, of its `n` consecutive blocks of `B` terms. -/
theorem sum_range_blocks {M : Type*} [AddCommMonoid M] (f : ℕ → M) (B : ℕ) : ∀ n : ℕ,
    ∑ b ∈ range n, ∑ κ ∈ range B, f (B * b + κ) = ∑ κ ∈ range (B * n), f κ
  | 0 => by simp
  | n + 1 => by rw [sum_range_succ, sum_range_blocks f B n, Nat.mul_succ, sum_range_add]

/-- A sum over `Fin n` of a function of the underlying natural is the sum over `range n`. -/
theorem sum_fin_eq_range {M : Type*} [AddCommMonoid M] (f : ℕ → M) (n : ℕ) :
    ∑ i : Fin n, f i.val = ∑ i ∈ range n, f i := Fin.sum_univ_eq_sum_range f n

end Cert.Lib.BlockSum
-- ==== Proof.KAcc.lean ====
/-
  The accumulator across the reduction steps.

  Within one output block the kernel visits the four column blocks of the contraction in order. Read entry by entry,
  the accumulator after step `k` is the sum, over the first `k + 1` column blocks, of the products of the left
  operand's row with the right operand's row: the first step starts from zeros, each later step adds its block's
  product to what the step before left, and the last step also writes that sum plus the bias entry to the output.
  Addition of extended reals is associative with neutral element zero, which is all the argument uses.
-/
import proofs.«109955_j29618094473423_1_alg».proof.Proof.KPieces
import proofs.«109955_j29618094473423_1_alg».proof.Proof.KPay
import proofs.«109955_j29618094473423_1_alg».proof.Proof.KBlocks
import proofs.«109955_j29618094473423_1_alg».proof.Proof.LibBlockSum

noncomputable section

namespace Cert.KernelIdeal.Acc

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- What the accumulator, and the output's staging block, hold after grid point `n`. -/
abbrev accAt (c : Dev nD) (n : ℕ) (h : n < cfg0.N) : FVec Ideal S512x1024 .f32 := (outsAt0 m c n h).2
abbrev outAt (c : Dev nD) (n : ℕ) (h : n < cfg0.N) : FVec Ideal S512x1024 .f32 := (outsAt0 m c n h).1

/-- First step of a block: zeros plus the step's product. -/
theorem acc_first (c : Dev nD) (t : Fin cfg0.N) (h0 : t.val % 4 = 0) (h1 : ¬t.val % 4 = 3) :
    accAt m c t.val t.isLt = k0_pay2 (k0_pay1 (F := Ideal)) (lhsBlk m c t) (rhsBlk m c t) := by
  show (outsAt0 m c t.val t.isLt).2 = _
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- A middle step: what the step before left plus the step's product. -/
theorem acc_mid (c : Dev nD) (t : Fin cfg0.N) (h0 : ¬t.val % 4 = 0) (h1 : ¬t.val % 4 = 3) :
    accAt m c t.val t.isLt = k0_pay2 (accAt m c (t.val - 1) (Nat.lt_of_le_of_lt (Nat.sub_le _ _) t.isLt)) (lhsBlk m c t) (rhsBlk m c t) := by
  show (outsAt0 m c t.val t.isLt).2 = _
  rw [outsAt0_B m c t h0 h1]
  dsimp only
  exact Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- The last step: the same for the accumulator, -/
theorem acc_last (c : Dev nD) (t : Fin cfg0.N) (h0 : ¬t.val % 4 = 0) (h1 : t.val % 4 = 3) :
    accAt m c t.val t.isLt = k0_pay2 (accAt m c (t.val - 1) (Nat.lt_of_le_of_lt (Nat.sub_le _ _) t.isLt)) (lhsBlk m c t) (rhsBlk m c t) := by
  show (outsAt0 m c t.val t.isLt).2 = _
  rw [outsAt0_C m c t h0 h1]
  dsimp only
  exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output block is that accumulator plus the bias row. -/
theorem out_last (c : Dev nD) (t : Fin cfg0.N) (h0 : ¬t.val % 4 = 0) (h1 : t.val % 4 = 3) :
    outAt m c t.val t.isLt = k0_pay3 (k0_pay2 (accAt m c (t.val - 1) (Nat.lt_of_le_of_lt (Nat.sub_le _ _) t.isLt)) (lhsBlk m c t) (rhsBlk m c t)) (biasBlk m c t) := by
  show (outsAt0 m c t.val t.isLt).1 = _
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- Row `r` of the left operand against row `n` of the right one, over the first `k + 1` column blocks of 1024. -/
def part (X : FVec Ideal S4096x4096 .bf16) (W : FVec Ideal S16384x4096 .bf16) (r n k : ℕ) : EReal :=
  ∑ b ∈ Finset.range (k + 1), ∑ κ ∈ Finset.range 1024, rd X r (1024 * b + κ) * rd W n (1024 * b + κ)

/-- One step's product at an entry, over the arrays. -/
theorem blockProd (c : Dev nD) (t : Fin cfg0.N) (p : Fin 512) (q : Fin 1024) :
    ∑ κ : Fin 1024, lhsBlk m c t (ix2 p κ) * rhsBlk m c t (ix2 q κ)
      = ∑ κ ∈ Finset.range 1024, rd (lhsArr m c) (512 * (t.val / 64) + p.val) (1024 * (t.val % 4) + κ)
          * rd (rhsArr m c) (1024 * (t.val / 4 % 16) + q.val) (1024 * (t.val % 4) + κ) := by
  rw [← Cert.Lib.BlockSum.sum_fin_eq_range (fun κ => rd (lhsArr m c) (512 * (t.val / 64) + p.val) (1024 * (t.val % 4) + κ)
      * rd (rhsArr m c) (1024 * (t.val / 4 % 16) + q.val) (1024 * (t.val % 4) + κ)) 1024]
  exact Finset.sum_congr rfl fun κ _ => by rw [lhsBlk_apply, rhsBlk_apply]

/-- THE INVARIANT: after point `n` the accumulator's entry (p, q) is the partial sum over the column blocks visited so far. -/
theorem acc_eq (c : Dev nD) (n : ℕ) : ∀ (h : n < cfg0.N) (p : Fin 512) (q : Fin 1024),
    accAt m c n h (ix2 p q)
      = part (lhsArr m c) (rhsArr m c) (512 * (n / 64) + p.val) (1024 * (n / 4 % 16) + q.val) (n % 4) := by
  induction n using Nat.strong_induction_on with
  | _ n ih =>
    intro h p q
    have hN : cfg0.N = 512 := N_0
    by_cases h0 : n % 4 = 0
    · have h1 : ¬n % 4 = 3 := by omega
      rw [acc_first m c ⟨n, h⟩ h0 h1, Pay.pay2_apply, Pay.pay1_apply, zero_add, blockProd]
      dsimp only
      rw [h0]
      unfold part
      rw [Finset.sum_range_one]
    · have hstep : accAt m c n h = k0_pay2 (accAt m c (n - 1) (Nat.lt_of_le_of_lt (Nat.sub_le _ _) h))
          (lhsBlk m c ⟨n, h⟩) (rhsBlk m c ⟨n, h⟩) := by
        by_cases h1 : n % 4 = 3
        · exact acc_last m c ⟨n, h⟩ h0 h1
        · exact acc_mid m c ⟨n, h⟩ h0 h1
      rw [hstep, Pay.pay2_apply, ih (n - 1) (by omega) _ p q, blockProd]
      dsimp only
      have e1 : (n - 1) / 64 = n / 64 := by omega
      have e2 : (n - 1) / 4 % 16 = n / 4 % 16 := by omega
      have e3 : n % 4 = (n - 1) % 4 + 1 := by omega
      rw [e1, e2, e3]
      unfold part
      exact (Finset.sum_range_succ _ _).symm

/-- So at a block's last step the output's staging block holds, at entry (p, q), the whole contraction plus the bias entry. -/
theorem out_eq (c : Dev nD) (t : Fin cfg0.N) (h1 : t.val % 4 = 3) (p : Fin 512) (q : Fin 1024) :
    outAt m c t.val t.isLt (ix2 p q)
      = part (lhsArr m c) (rhsArr m c) (512 * (t.val / 64) + p.val) (1024 * (t.val / 4 % 16) + q.val) 3
        + rd (biasArr m c) 0 (1024 * (t.val / 4 % 16) + q.val) := by
  have hN : cfg0.N = 512 := N_0
  have h0 : ¬t.val % 4 = 0 := by omega
  rw [out_last m c t h0 h1, Pay.pay3_apply, ← acc_last m c t h0 h1, acc_eq m c t.val t.isLt p q, h1, biasBlk_apply]

end Cert.KernelIdeal.Acc

end
-- ==== Proof.KValue.lean ====
/-
  The kernel's result array.

  Entry (r, n) of the [4096, 16384] result is the contraction of row `r` of the left operand with row `n` of the right
  operand, taken as four consecutive column blocks of 1024, plus entry `n` of the bias row. The pipeline writes the
  result back one [512, 1024] block at a time, at the last reduction step of each block; the block written at point `t`
  is rows `512 · (t / 64) + p`, columns `1024 · (t / 4 % 16) + q` of that one function, and the 128 written blocks tile
  the array: entry (r, n) lies in the block written at point `((r / 512) · 16 + n / 1024) · 4 + 3`. After the region the
  program only gives the array a leading unit axis.
-/
import proofs.«109955_j29618094473423_1_alg».proof.Proof.KAcc
import Idealize.ShloMosaic.Lib.Pipeline.Value
import Idealize.ShloMosaic.Lib.StableHlo.Run

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Acc

/-- The whole result matrix as one function of the three staged arrays. -/
def whole (X : FVec Ideal S4096x4096 .bf16) (W : FVec Ideal S16384x4096 .bf16) (B : FVec Ideal S1x16384 .f32) :
    FVec Ideal S4096x16384 .f32 :=
  fun i => part X W (i 0).val (i 1).val 3 + rd B 0 (i 1).val

variable (m : (ℓ : Loc nD τ sig) → Buf (Elt Ideal) ℓ) (ρ : Dev nD → PrngReg)

/-- The result array's contents. -/
abbrev result (c : Dev nD) : Buf (Elt Ideal) ((c : Thread nD τ).loc main_v59) :=
  whole (lhsArr m c) (rhsArr m c) (biasArr m c)

/-- No block of the output window is cut short by the array's end, decided over the points. -/
theorem xsize_facts : ∀ t : Fin cfg0.N,
    win0_3.xsize (grid0.coords t) (0 : Fin 2) = 512 ∧ win0_3.xsize (grid0.coords t) (1 : Fin 2) = 1024 :=
  (by decide +kernel : ∀ t : Fin grid0.N, _)

/-- What the write-back at a block's last step writes is that block of `whole`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 512 := lt_of_lt_of_eq t.isLt (show cfg0.N = 512 from N_0)
  obtain ⟨-, -, -, -, -, -, h30, h31⟩ := idx_facts t
  show (dats m 0 c).after 3 t = _
  rw [after0_3]
  funext y
  obtain ⟨p, q, rfl⟩ : ∃ (p : Fin 512) (q : Fin 1024), y = ix2 p q := ⟨y 0, y 1, eq_ix2 y⟩
  rw [View.read_apply]
  refine (out_eq m c t h3 p q).trans ?_
  show _ = whole (lhsArr m c) (rhsArr m c) (biasArr m c) (((cfg0.win 3).blk t).view.emb (ix2 p q))
  unfold whole
  have e0 : ((((cfg0.win 3).blk t).view.emb (ix2 p q)) 0).val = 512 * (t.val / 64) + p.val := by
    show win0_3.index t 0 * 512 + 1 * p.val = _; rw [h30]; omega
  have e1 : ((((cfg0.win 3).blk t).view.emb (ix2 p q)) 1).val = 1024 * (t.val / 4 % 16) + q.val := by
    show win0_3.index t 1 * 1024 + 1 * q.val = _; rw [h31]; omega
  rw [e0, e1]

/-- The written blocks tile the array, so it ends holding `whole`. -/
theorem final (c : Dev nD) : (dats m 0 c).arrAt 3 cfg0.N = result m c :=
  (dats m 0 c).arrAt_eq_of_cover 3 (result m c) (flushed_eq m c) fun i => by
    have hi0 : (i 0 : ℕ) < 4096 := (i 0).isLt
    have hi1 : (i 1 : ℕ) < 16384 := (i 1).isLt
    have hN : cfg0.N = 512 := N_0
    obtain ⟨t, ht⟩ : ∃ t : Fin cfg0.N, t.val = ((i 0 : ℕ) / 512 * 16 + (i 1 : ℕ) / 1024) * 4 + 3 :=
      ⟨⟨((i 0 : ℕ) / 512 * 16 + (i 1 : ℕ) / 1024) * 4 + 3, by omega⟩, rfl⟩
    obtain ⟨-, -, -, -, -, -, h30, h31⟩ := idx_facts t
    obtain ⟨hx0, hx1⟩ := xsize_facts t
    refine ⟨t, (flush0_3 t).mpr (by omega), ?_⟩
    show i ∈ ((View.whole main_v59).slice (win0_3.rect t)).set
    rw [View.set_slice_whole, Rect.mem_set_unit]
    intro a
    match a with
    | ⟨0, _⟩ =>
      show win0_3.index t 0 * win0_3.size 0 ≤ (i 0 : ℕ) ∧ (i 0 : ℕ) < win0_3.index t 0 * win0_3.size 0 + win0_3.xsize (grid0.coords t) 0
      rw [h30, hx0, show win0_3.size 0 = 512 from rfl]; omega
    | ⟨1, _⟩ =>
      show win0_3.index t 1 * win0_3.size 1 ≤ (i 1 : ℕ) ∧ (i 1 : ℕ) < win0_3.index t 1 * win0_3.size 1 + win0_3.xsize (grid0.coords t) 1
      rw [h31, hx1, show win0_3.size 1 = 1024 from rfl]; omega

/-- The program's result: the array with a leading unit axis. -/
theorem tail_eq (c : Dev nD) :
    Pipeline.afterTail₀ cfgs (dats m) 0 (V0 m) [hostOps1] c main_v60
      = (shapeCast S1x4096x16384 (result m c) Facts₀.shapeCasts_S4096x16384_S1x4096x16384 : FVec Ideal S1x4096x16384 .f32) := by
  unfold Pipeline.afterTail₀
  show StableHlo.after hostOps1 _ (Proc.devRef .tc main_v60) = _
  after_results
  rw [(Pipeline.withArrays_arr spec0 launch0.win.arr_inj c _ _ 3).trans (final m c)]
  rfl

/-- The run, read: the result at `whole` with a leading unit axis, the arguments unchanged. -/
theorem run : θ_run defs (onTc (τ := τ) (main (F := Ideal))) ⟨m, fun _ => 0, ρ⟩ fun r => ∀ c : Dev nD,
      r.2.mem ((c.tc : Thread nD τ).loc main_v60)
          = (shapeCast S1x4096x16384 (result m c) Facts₀.shapeCasts_S4096x16384_S1x4096x16384 : FVec Ideal S1x4096x16384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v60 (Pipeline.mem_restRefs_of main_v60 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Val

end
-- ==== Proof.KHead.lean ====
/-
  The arrays the kernel's pipeline stages, as functions of the program's arguments.

  Before the matmul the kernel's program runs, on the host, the same quantisation arithmetic as the reference: the
  left operand it stages is the dequantised activations `xdeq x` (narrowed to bf16, which over the extended reals changes
  nothing), the right operand the dequantised weights `wdeq w s` (likewise), and the bias enters as a one-row matrix.
-/
import proofs.«109955_j29618094473423_1_alg».proof.Proof.Quant
import proofs.«109955_j29618094473423_1_alg».proof.Proof.Gen.ReferenceIdeal
import proofs.«109955_j29618094473423_1_alg».proof.Proof.Gen.KernelIdeal.Frame
import Idealize.ShloMosaic.Lib.StableHlo.Run

noncomputable section

namespace Cert.KernelIdeal.Head

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

attribute [local irreducible] Host.reduce Host.gather in
set_option maxRecDepth 16384 in
set_option maxHeartbeats 4000000 in
/-- The left operand: the dequantised activations. -/
theorem lhs_eq (c : Dev nD) :
    V m c main_v51 = (truncf .bf16 (Cert.ReferenceIdeal.Quant.xdeq (m ((c : Thread nD τ).loc main_arg0))) Facts₀.bitsLt_bf16_f32
      : FVec F S4096x4096 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxRecDepth 16384 in
set_option maxHeartbeats 4000000 in
/-- The right operand: the dequantised weights. -/
theorem rhs_eq (c : Dev nD) :
    V m c main_v57 = (truncf .bf16 (Cert.ReferenceIdeal.Quant.wdeq (m ((c : Thread nD τ).loc main_arg1)) (m ((c : Thread nD τ).loc main_arg2)))
      Facts₀.bitsLt_bf16_f32 : FVec F S16384x4096 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxRecDepth 16384 in
set_option maxHeartbeats 4000000 in
/-- The bias as a one-row matrix. -/
theorem bias_eq (c : Dev nD) :
    V m c main_v58 = (shapeCast S1x16384 (m ((c : Thread nD τ).loc main_arg3)) Facts₀.shapeCasts_S16384_S1x16384
      : FVec F S1x16384 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.KernelIdeal.Head

end
-- ==== Proof.RefRead.lean ====
/-
  The reference's closing operations read at one index, at the ideal values (a float is an extended real).
  With a leading unit axis, entry (r, n) of the result is the sum over κ of X[r, κ] · W[n, κ], plus b[n]:
  the product contracts axis 1 of X with axis 0 of the transpose of W, a zero splat is added in front of it
  (and vanishes), and the bias vector is laid as one row and repeated down the rows.
-/
import proofs.«109955_j29618094473423_1_alg».proof.Proof.Quant
import proofs.«109955_j29618094473423_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
noncomputable section
namespace Cert.ReferenceIdeal.Read
open Idealize.ShloMosaic Idealize.ShloMosaic.ValueIdx Cert.ReferenceIdeal

/-- The left operand's row coordinate is the output's row coordinate. -/
theorem lhs_dot_0 (j : S4096x16384.Idx) (k : (dot_S4096x4096_S4096x16384_S4096x16384_1_0_0_1_n_n).contr.Idx) :
    ((dot_S4096x4096_S4096x16384_S4096x16384_1_0_0_1_n_n).lhsIdx j k 0).val = (j 0).val := by
  unfold DotDims.lhsIdx
  rw [dif_neg (show ¬ (0 : Fin S4096x4096.rank) ∈ (dot_S4096x4096_S4096x16384_S4096x16384_1_0_0_1_n_n).lhsBatch by decide),
    dif_pos (show (0 : Fin S4096x4096.rank) ∈ (dot_S4096x4096_S4096x16384_S4096x16384_1_0_0_1_n_n).lhsNonContracting by decide)]
  rfl

/-- The left operand's column coordinate is the contraction position. -/
theorem lhs_dot_1 (j : S4096x16384.Idx) (k : (dot_S4096x4096_S4096x16384_S4096x16384_1_0_0_1_n_n).contr.Idx) :
    ((dot_S4096x4096_S4096x16384_S4096x16384_1_0_0_1_n_n).lhsIdx j k 1).val = (k ⟨0, by decide⟩).val :=
  DotDims.lhsIdx_val_of_single _ rfl j k

/-- The right operand's row coordinate is the contraction position. -/
theorem rhs_dot_0 (j : S4096x16384.Idx) (k : (dot_S4096x4096_S4096x16384_S4096x16384_1_0_0_1_n_n).contr.Idx) :
    ((dot_S4096x4096_S4096x16384_S4096x16384_1_0_0_1_n_n).rhsIdx j k 0).val = (k ⟨0, by decide⟩).val :=
  DotDims.rhsIdx_val_of_single _ rfl j k

/-- The right operand's column coordinate is the output's column coordinate. -/
theorem rhs_dot_1 (j : S4096x16384.Idx) (k : (dot_S4096x4096_S4096x16384_S4096x16384_1_0_0_1_n_n).contr.Idx) :
    ((dot_S4096x4096_S4096x16384_S4096x16384_1_0_0_1_n_n).rhsIdx j k 1).val = (j 1).val := by
  unfold DotDims.rhsIdx
  rw [dif_neg (show ¬ (1 : Fin S4096x16384.rank) ∈ (dot_S4096x4096_S4096x16384_S4096x16384_1_0_0_1_n_n).rhsBatch by decide),
    dif_pos (show (1 : Fin S4096x16384.rank) ∈ (dot_S4096x4096_S4096x16384_S4096x16384_1_0_0_1_n_n).rhsNonContracting by decide)]
  rfl

/-- The reference's closing operations at one index: the zero splat vanishes, the host product is the sum over the
    contracted axis of the activation row against the weight row (the weight is transposed before the product), and
    the bias is broadcast down the rows. -/
theorem closing_apply (X : FVec Ideal S4096x4096 .f32) (W : FVec Ideal S16384x4096 .f32) (b : FVec Ideal S16384 .f32)
    (r : Fin 4096) (n : Fin 16384) :
    Quant.closing (F := Ideal) X W b (ix3 (0 : Fin 1) r n)
      = (∑ κ : Fin 4096, X (ix2 r κ) * W (ix2 n κ)) + b (ix1 n) := by
  -- the zero splat
  have h1 : broadcastInDim S4096x16384 ![] Facts₀.bcast_S_S4096x16384 (constant (F := Ideal) S_ .f32 0x00000000#32) (ix2 r n)
      = (0 : EReal) := by
    rw [broadcastInDim_apply _ _ _ _ ix0 (fun a => a.elim0), constant_apply, Ideal.ofBits_zero_f32]
  -- the bias, first laid as one row, then broadcast down the rows
  have h3 : broadcastInDim S4096x16384 ![0, 1] Facts₀.bcast_S1x16384_S4096x16384_0_1
      (broadcastInDim S1x16384 ![1] Facts₀.bcast_S16384_S1x16384_1 b) (ix2 r n) = b (ix1 n) := by
    rw [broadcastInDim_apply _ _ _ (ix2 r n) (ix2 (0 : Fin 1) n)
        (fun a => match a with | ⟨0, _⟩ => rfl | ⟨1, _⟩ => rfl),
      broadcastInDim_apply _ _ _ (ix2 (0 : Fin 1) n) (ix1 n) (fun a => match a with | ⟨0, _⟩ => rfl)]
  -- the product: the contraction's sum re-indexed by its one coordinate, the operands' indices named by coordinates
  have h2 : Host.dotGeneral (F := Ideal) dot_S4096x4096_S4096x16384_S4096x16384_1_0_0_1_n_n none X
      (transpose S4096x16384 [1, 0] W Facts₀.transposes_S16384x4096_S4096x16384_1_0) (ix2 r n)
      = ∑ κ : Fin 4096, X (ix2 r κ) * W (ix2 n κ) := by
    simp only [Host.dotGeneral]
    rw [Ideal.dotGeneral_apply,
      ← Equiv.sum_comp (contrEquiv1 dot_S4096x4096_S4096x16384_S4096x16384_1_0_0_1_n_n 4096 rfl rfl).symm]
    refine Finset.sum_congr rfl fun κ _ => ?_
    have hk := contrEquiv1_symm_val dot_S4096x4096_S4096x16384_S4096x16384_1_0_0_1_n_n 4096 rfl rfl κ
    congr 1
    · refine congrArg X (funext fun a => Fin.ext ?_)
      match a with
      | ⟨0, _⟩ => exact lhs_dot_0 _ _
      | ⟨1, _⟩ => exact (lhs_dot_1 _ _).trans hk
    · refine transpose_apply _ W _ _ (ix2 n κ) fun c => ?_
      match c with
      | ⟨0, _⟩ => exact ((rhs_dot_0 _ _).trans hk).symm
      | ⟨1, _⟩ => exact (rhs_dot_1 (ix2 r n) _).symm
  unfold Quant.closing
  rw [shapeCast_ab_1ab_apply, addf_apply, addf_apply, h1, h2, h3, zero_add]

end Cert.ReferenceIdeal.Read
end
-- ==== Proof.Bridge.lean ====
/-
  The two programs compute one function.

  Entry (r, n) of the kernel's result is the contraction of row `r` of the dequantised activations with row `n` of the
  dequantised weights, summed as four consecutive blocks of 1024 columns, plus `bias n`; the reference's is
  `0 + ∑ κ, X r κ · W n κ + bias n` over all 4096 columns at once. Over the extended reals a finite sum may be cut into
  consecutive blocks and zero is neutral, so the two agree at every entry, whatever the inputs.
-/
import proofs.«109955_j29618094473423_1_alg».proof.Proof.KValue
import proofs.«109955_j29618094473423_1_alg».proof.Proof.KHead
import proofs.«109955_j29618094473423_1_alg».proof.Proof.RefRead
import Idealize.ShloMosaic.Lib.ValueLayout

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Blocks Cert.KernelIdeal.Acc

/-- The four column blocks together are the whole contraction. -/
theorem part_full (X : FVec Ideal S4096x4096 .bf16) (W : FVec Ideal S16384x4096 .bf16) (r : Fin 4096) (n : Fin 16384) :
    part X W r.val n.val 3 = ∑ κ : Fin 4096, X (ix2 r κ) * W (ix2 n κ) := by
  unfold part
  rw [Cert.Lib.BlockSum.sum_range_blocks (fun κ => rd X r.val κ * rd W n.val κ) 1024 (3 + 1),
    show 1024 * (3 + 1) = 4096 from rfl,
    ← Cert.Lib.BlockSum.sum_fin_eq_range (fun κ => rd X r.val κ * rd W n.val κ) 4096]
  refine Finset.sum_congr rfl fun κ _ => ?_
  rw [rd_of_lt X _ _ r.isLt κ.isLt, rd_of_lt W _ _ n.isLt κ.isLt]

variable (m : (ℓ : Loc nD τ sig) → Buf (Elt Ideal) ℓ)

/-- The kernel's result, with its leading unit axis, is the reference's closing contraction of the same dequantised
    operands. -/
theorem result_eq (c : Dev nD) :
    (shapeCast S1x4096x16384 (Val.result m c) Facts₀.shapeCasts_S4096x16384_S1x4096x16384 : FVec Ideal S1x4096x16384 .f32)
      = Cert.ReferenceIdeal.Quant.closing
          (Cert.ReferenceIdeal.Quant.xdeq (m ((c.tc : Thread nD τ).loc main_arg0)))
          (Cert.ReferenceIdeal.Quant.wdeq (m ((c.tc : Thread nD τ).loc main_arg1)) (m ((c.tc : Thread nD τ).loc main_arg2)))
          (m ((c.tc : Thread nD τ).loc main_arg3)) := by
  funext i
  obtain ⟨a, r, n, rfl⟩ : ∃ (a : Fin 1) (r : Fin 4096) (n : Fin 16384), i = ix3 a r n := ⟨i 0, i 1, i 2, eq_ix3 i⟩
  rw [shapeCast_ab_1ab_apply]
  obtain rfl : a = 0 := Subsingleton.elim _ _
  rw [Cert.ReferenceIdeal.Read.closing_apply]
  show part (lhsArr m c) (rhsArr m c) r.val n.val 3 + rd (biasArr m c) 0 n.val = _
  rw [part_full, rd_of_lt _ _ _ (by decide) n.isLt]
  rw [show lhsArr m c = _ from Head.lhs_eq m c, show rhsArr m c = _ from Head.rhs_eq m c,
    show biasArr m c = _ from Head.bias_eq m c]
  rw [shapeCast_a_1a_apply]
  rfl

end Cert.Proof.Bridge

end
-- ==== Proof.lean ====
/-
  The certificate of the blockwise-quantised matmul kernel against its reference.

  Both programs quantise the activations in blocks of sixteen (a scale per block from its largest magnitude, entries
  snapped to the signed grid {0, 0.5, 1, 1.5, 2, 3, 4, 6}, then multiplied back by the scale), dequantise the weights by
  their per-block scales, and form `activations · weightsᵀ + bias`. The kernel does the product on the grid
  8 × 16 × 4: for each [512, 1024] output block it accumulates four [512, 1024] × [1024, 1024]ᵀ products, starting
  from zeros, and adds the bias row at the last; the reference contracts all 4096 columns at once and adds `0` first.
  Read over the extended reals the quantisation arithmetic is the same term on both sides and is never opened; the
  narrowing of the operands to bf16 is the identity; and a sum cut into four consecutive blocks is the sum. No
  finiteness of the inputs is used.

  The three frames: the kernel's two are the generated ones; the reference's is its run with the result dropped.
  The idealisation rewrote nothing, so that conjunct is trivial.
-/
import proofs.«109955_j29618094473423_1_alg».proof.Defs
import proofs.«109955_j29618094473423_1_alg».proof.Proof.Gen.Kernel
import proofs.«109955_j29618094473423_1_alg».proof.Proof.Gen.Kernel.Skeleton
import proofs.«109955_j29618094473423_1_alg».proof.Proof.Gen.Kernel.Launch
import proofs.«109955_j29618094473423_1_alg».proof.Proof.Gen.Kernel.Points
import proofs.«109955_j29618094473423_1_alg».proof.Proof.Gen.Kernel.Frame
import proofs.«109955_j29618094473423_1_alg».proof.Proof.Gen.KernelIdeal
import proofs.«109955_j29618094473423_1_alg».proof.Proof.Gen.KernelIdeal.Skeleton
import proofs.«109955_j29618094473423_1_alg».proof.Proof.Gen.KernelIdeal.Launch
import proofs.«109955_j29618094473423_1_alg».proof.Proof.Gen.KernelIdeal.Points
import proofs.«109955_j29618094473423_1_alg».proof.Proof.Gen.KernelIdeal.Frame
import proofs.«109955_j29618094473423_1_alg».proof.Proof.Gen.ReferenceIdeal
import proofs.«109955_j29618094473423_1_alg».proof.Proof.Gen.Pre_finite_inputs
import proofs.«109955_j29618094473423_1_alg».proof.Proof.RefRun
import proofs.«109955_j29618094473423_1_alg».proof.Proof.Bridge
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · exact fun m ρ _ => (θ_run Cert.ReferenceIdeal.defs _ _).mono (fun _ h c => (h c).2)
      (Cert.ReferenceIdeal.RefRun.run (F := Ideal) m ρ)
  · intro m ρ m' ρ' _ hagree
    refine ⟨fun c => (shapeCast Cert.KernelIdeal.S1x4096x16384 (Cert.KernelIdeal.Val.result m c)
        Cert.KernelIdeal.Facts₀.shapeCasts_S4096x16384_S1x4096x16384 : FVec Ideal Cert.KernelIdeal.S1x4096x16384 .f32),
      Cert.KernelIdeal.Val.run m ρ, ?_⟩
    refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]
    exact (Cert.Proof.Bridge.result_eq m c).symm⟩

end Cert.Proof

end
